-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x16 : Shape := ⟨3, ![16384, 32, 16]⟩
abbrev S_ : Shape := ⟨0, ![]⟩

class Facts : Prop where
  bcast_S_S16384x32x16 : S_.BroadcastsInDim S16384x32x16 (![] : Fin 0 → Fin S16384x32x16.rank)
  reducesTo_S16384x32x16_S_d0_1_2 : S16384x32x16.ReducesTo [0, 1, 2] S_
  h_S_ : 0 < S_.numel

variable [Facts]

def fn {F : FTy → Type} [FloatOps F] (main_arg0 : FVec F S16384x32x16 .f32) : IVec S_ 1 :=
  let main_v0 : FVec F S16384x32x16 .f32 := Host.absf main_arg0
  let main_cst : FVec F S_ .f32 := constant S_ .f32 0x7F800000#32
  let main_v1 : FVec F S16384x32x16 .f32 := broadcastInDim S16384x32x16 ![] bcast_S_S16384x32x16 main_cst
  let main_v2 : IVec S16384x32x16 1 := cmpf .olt main_v0 main_v1
  let main_c : IVec S_ 1 := constantI S_ 1 1#1
  let main_v3 : IVec S_ 1 := (fun x v => Host.reduce IntOp.andi x v reducesTo_S16384x32x16_S_d0_1_2 h_S_) main_v2 main_c
  main_v3
-- ==== Kernel.lean ====
abbrev S16384x32x16 : Shape := ⟨3, ![16384, 32, 16]⟩
abbrev S16384x496 : Shape := ⟨2, ![16384, 496]⟩
abbrev S2048x32x16 : Shape := ⟨3, ![2048, 32, 16]⟩
abbrev S2048x496 : Shape := ⟨2, ![2048, 496]⟩
abbrev S2048x1x16 : Shape := ⟨3, ![2048, 1, 16]⟩
abbrev S2048x31x16 : Shape := ⟨3, ![2048, 31, 16]⟩
abbrev S2048x31 : Shape := ⟨2, ![2048, 31]⟩
abbrev S2048x30x16 : Shape := ⟨3, ![2048, 30, 16]⟩
abbrev S2048x30 : Shape := ⟨2, ![2048, 30]⟩
abbrev S2048x29x16 : Shape := ⟨3, ![2048, 29, 16]⟩
abbrev S2048x29 : Shape := ⟨2, ![2048, 29]⟩
abbrev S2048x28x16 : Shape := ⟨3, ![2048, 28, 16]⟩
abbrev S2048x28 : Shape := ⟨2, ![2048, 28]⟩
abbrev S2048x27x16 : Shape := ⟨3, ![2048, 27, 16]⟩
abbrev S2048x27 : Shape := ⟨2, ![2048, 27]⟩
abbrev S2048x26x16 : Shape := ⟨3, ![2048, 26, 16]⟩
abbrev S2048x26 : Shape := ⟨2, ![2048, 26]⟩
abbrev S2048x25x16 : Shape := ⟨3, ![2048, 25, 16]⟩
abbrev S2048x25 : Shape := ⟨2, ![2048, 25]⟩
abbrev S2048x24x16 : Shape := ⟨3, ![2048, 24, 16]⟩
abbrev S2048x24 : Shape := ⟨2, ![2048, 24]⟩
abbrev S2048x23x16 : Shape := ⟨3, ![2048, 23, 16]⟩
abbrev S2048x23 : Shape := ⟨2, ![2048, 23]⟩
abbrev S2048x22x16 : Shape := ⟨3, ![2048, 22, 16]⟩
abbrev S2048x22 : Shape := ⟨2, ![2048, 22]⟩
abbrev S2048x21x16 : Shape := ⟨3, ![2048, 21, 16]⟩
abbrev S2048x21 : Shape := ⟨2, ![2048, 21]⟩
abbrev S2048x20x16 : Shape := ⟨3, ![2048, 20, 16]⟩
abbrev S2048x20 : Shape := ⟨2, ![2048, 20]⟩
abbrev S2048x19x16 : Shape := ⟨3, ![2048, 19, 16]⟩
abbrev S2048x19 : Shape := ⟨2, ![2048, 19]⟩
abbrev S2048x18x16 : Shape := ⟨3, ![2048, 18, 16]⟩
abbrev S2048x18 : Shape := ⟨2, ![2048, 18]⟩
abbrev S2048x17x16 : Shape := ⟨3, ![2048, 17, 16]⟩
abbrev S2048x17 : Shape := ⟨2, ![2048, 17]⟩
abbrev S2048x16x16 : Shape := ⟨3, ![2048, 16, 16]⟩
abbrev S2048x16 : Shape := ⟨2, ![2048, 16]⟩
abbrev S2048x15x16 : Shape := ⟨3, ![2048, 15, 16]⟩
abbrev S2048x15 : Shape := ⟨2, ![2048, 15]⟩
abbrev S2048x14x16 : Shape := ⟨3, ![2048, 14, 16]⟩
abbrev S2048x14 : Shape := ⟨2, ![2048, 14]⟩
abbrev S2048x13x16 : Shape := ⟨3, ![2048, 13, 16]⟩
abbrev S2048x13 : Shape := ⟨2, ![2048, 13]⟩
abbrev S2048x12x16 : Shape := ⟨3, ![2048, 12, 16]⟩
abbrev S2048x12 : Shape := ⟨2, ![2048, 12]⟩
abbrev S2048x11x16 : Shape := ⟨3, ![2048, 11, 16]⟩
abbrev S2048x11 : Shape := ⟨2, ![2048, 11]⟩
abbrev S2048x10x16 : Shape := ⟨3, ![2048, 10, 16]⟩
abbrev S2048x10 : Shape := ⟨2, ![2048, 10]⟩
abbrev S2048x9x16 : Shape := ⟨3, ![2048, 9, 16]⟩
abbrev S2048x9 : Shape := ⟨2, ![2048, 9]⟩
abbrev S2048x8x16 : Shape := ⟨3, ![2048, 8, 16]⟩
abbrev S2048x8 : Shape := ⟨2, ![2048, 8]⟩
abbrev S2048x7x16 : Shape := ⟨3, ![2048, 7, 16]⟩
abbrev S2048x7 : Shape := ⟨2, ![2048, 7]⟩
abbrev S2048x6x16 : Shape := ⟨3, ![2048, 6, 16]⟩
abbrev S2048x6 : Shape := ⟨2, ![2048, 6]⟩
abbrev S2048x5x16 : Shape := ⟨3, ![2048, 5, 16]⟩
abbrev S2048x5 : Shape := ⟨2, ![2048, 5]⟩
abbrev S2048x4x16 : Shape := ⟨3, ![2048, 4, 16]⟩
abbrev S2048x4 : Shape := ⟨2, ![2048, 4]⟩
abbrev S2048x3x16 : Shape := ⟨3, ![2048, 3, 16]⟩
abbrev S2048x3 : Shape := ⟨2, ![2048, 3]⟩
abbrev S2048x2x16 : Shape := ⟨3, ![2048, 2, 16]⟩
abbrev S2048x2 : Shape := ⟨2, ![2048, 2]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x32x16, .f32⟩
  | .hbm, ⟨1, _⟩ => ⟨S16384x496, .f32⟩
  | .local _ .vmem, ⟨0, _⟩ => ⟨S2048x32x16, .f32⟩
  | .local _ .vmem, ⟨1, _⟩ => ⟨S2048x32x16, .f32⟩
  | .local _ .vmem, ⟨2, _⟩ => ⟨S2048x496, .f32⟩
  | .local _ .vmem, ⟨3, _⟩ => ⟨S2048x496, .f32⟩
  | _, _ => ⟨S16384x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x496 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x32x16_S2048x32x16_0_0_0 : ∀ a, (![0, 0, 0] : Fin 3 → Nat) a + S2048x32x16.size a ≤ S2048x32x16.size a
  h_S2048x32x16 : 0 < S2048x32x16.numel
  slices_S2048x32x16_o0_0_0_S2048x1x16 : S2048x32x16.Slices ![0, 0, 0] S2048x1x16
  slices_S2048x32x16_o0_1_0_S2048x31x16 : S2048x32x16.Slices ![0, 1, 0] S2048x31x16
  broadcasts_S2048x1x16_S2048x31x16 : S2048x1x16.Broadcasts S2048x31x16
  reduces_S2048x31x16_S2048x31 : S2048x31x16.Reduces [2] S2048x31
  inb_S2048x496_S2048x31_0_0 : ∀ a, (![0, 0] : Fin 2 → Nat) a + S2048x31.size a ≤ S2048x496.size a
  h_S2048x31 : 0 < S2048x31.numel
  slices_S2048x32x16_o0_1_0_S2048x1x16 : S2048x32x16.Slices ![0, 1, 0] S2048x1x16
  slices_S2048x32x16_o0_2_0_S2048x30x16 : S2048x32x16.Slices ![0, 2, 0] S2048x30x16
  broadcasts_S2048x1x16_S2048x30x16 : S2048x1x16.Broadcasts S2048x30x16
  reduces_S2048x30x16_S2048x30 : S2048x30x16.Reduces [2] S2048x30
  inb_S2048x496_S2048x30_0_31 : ∀ a, (![0, 31] : Fin 2 → Nat) a + S2048x30.size a ≤ S2048x496.size a
  h_S2048x30 : 0 < S2048x30.numel
  slices_S2048x32x16_o0_2_0_S2048x1x16 : S2048x32x16.Slices ![0, 2, 0] S2048x1x16
  slices_S2048x32x16_o0_3_0_S2048x29x16 : S2048x32x16.Slices ![0, 3, 0] S2048x29x16
  broadcasts_S2048x1x16_S2048x29x16 : S2048x1x16.Broadcasts S2048x29x16
  reduces_S2048x29x16_S2048x29 : S2048x29x16.Reduces [2] S2048x29
  inb_S2048x496_S2048x29_0_61 : ∀ a, (![0, 61] : Fin 2 → Nat) a + S2048x29.size a ≤ S2048x496.size a
  h_S2048x29 : 0 < S2048x29.numel
  slices_S2048x32x16_o0_3_0_S2048x1x16 : S2048x32x16.Slices ![0, 3, 0] S2048x1x16
  slices_S2048x32x16_o0_4_0_S2048x28x16 : S2048x32x16.Slices ![0, 4, 0] S2048x28x16
  broadcasts_S2048x1x16_S2048x28x16 : S2048x1x16.Broadcasts S2048x28x16
  reduces_S2048x28x16_S2048x28 : S2048x28x16.Reduces [2] S2048x28
  inb_S2048x496_S2048x28_0_90 : ∀ a, (![0, 90] : Fin 2 → Nat) a + S2048x28.size a ≤ S2048x496.size a
  h_S2048x28 : 0 < S2048x28.numel
  slices_S2048x32x16_o0_4_0_S2048x1x16 : S2048x32x16.Slices ![0, 4, 0] S2048x1x16
  slices_S2048x32x16_o0_5_0_S2048x27x16 : S2048x32x16.Slices ![0, 5, 0] S2048x27x16
  broadcasts_S2048x1x16_S2048x27x16 : S2048x1x16.Broadcasts S2048x27x16
  reduces_S2048x27x16_S2048x27 : S2048x27x16.Reduces [2] S2048x27
  inb_S2048x496_S2048x27_0_118 : ∀ a, (![0, 118] : Fin 2 → Nat) a + S2048x27.size a ≤ S2048x496.size a
  h_S2048x27 : 0 < S2048x27.numel
  slices_S2048x32x16_o0_5_0_S2048x1x16 : S2048x32x16.Slices ![0, 5, 0] S2048x1x16
  slices_S2048x32x16_o0_6_0_S2048x26x16 : S2048x32x16.Slices ![0, 6, 0] S2048x26x16
  broadcasts_S2048x1x16_S2048x26x16 : S2048x1x16.Broadcasts S2048x26x16
  reduces_S2048x26x16_S2048x26 : S2048x26x16.Reduces [2] S2048x26
  inb_S2048x496_S2048x26_0_145 : ∀ a, (![0, 145] : Fin 2 → Nat) a + S2048x26.size a ≤ S2048x496.size a
  h_S2048x26 : 0 < S2048x26.numel
  slices_S2048x32x16_o0_6_0_S2048x1x16 : S2048x32x16.Slices ![0, 6, 0] S2048x1x16
  slices_S2048x32x16_o0_7_0_S2048x25x16 : S2048x32x16.Slices ![0, 7, 0] S2048x25x16
  broadcasts_S2048x1x16_S2048x25x16 : S2048x1x16.Broadcasts S2048x25x16
  reduces_S2048x25x16_S2048x25 : S2048x25x16.Reduces [2] S2048x25
  inb_S2048x496_S2048x25_0_171 : ∀ a, (![0, 171] : Fin 2 → Nat) a + S2048x25.size a ≤ S2048x496.size a
  h_S2048x25 : 0 < S2048x25.numel
  slices_S2048x32x16_o0_7_0_S2048x1x16 : S2048x32x16.Slices ![0, 7, 0] S2048x1x16
  slices_S2048x32x16_o0_8_0_S2048x24x16 : S2048x32x16.Slices ![0, 8, 0] S2048x24x16
  broadcasts_S2048x1x16_S2048x24x16 : S2048x1x16.Broadcasts S2048x24x16
  reduces_S2048x24x16_S2048x24 : S2048x24x16.Reduces [2] S2048x24
  inb_S2048x496_S2048x24_0_196 : ∀ a, (![0, 196] : Fin 2 → Nat) a + S2048x24.size a ≤ S2048x496.size a
  h_S2048x24 : 0 < S2048x24.numel
  slices_S2048x32x16_o0_8_0_S2048x1x16 : S2048x32x16.Slices ![0, 8, 0] S2048x1x16
  slices_S2048x32x16_o0_9_0_S2048x23x16 : S2048x32x16.Slices ![0, 9, 0] S2048x23x16
  broadcasts_S2048x1x16_S2048x23x16 : S2048x1x16.Broadcasts S2048x23x16
  reduces_S2048x23x16_S2048x23 : S2048x23x16.Reduces [2] S2048x23
  inb_S2048x496_S2048x23_0_220 : ∀ a, (![0, 220] : Fin 2 → Nat) a + S2048x23.size a ≤ S2048x496.size a
  h_S2048x23 : 0 < S2048x23.numel
  slices_S2048x32x16_o0_9_0_S2048x1x16 : S2048x32x16.Slices ![0, 9, 0] S2048x1x16
  slices_S2048x32x16_o0_10_0_S2048x22x16 : S2048x32x16.Slices ![0, 10, 0] S2048x22x16
  broadcasts_S2048x1x16_S2048x22x16 : S2048x1x16.Broadcasts S2048x22x16
  reduces_S2048x22x16_S2048x22 : S2048x22x16.Reduces [2] S2048x22
  inb_S2048x496_S2048x22_0_243 : ∀ a, (![0, 243] : Fin 2 → Nat) a + S2048x22.size a ≤ S2048x496.size a
  h_S2048x22 : 0 < S2048x22.numel
  slices_S2048x32x16_o0_10_0_S2048x1x16 : S2048x32x16.Slices ![0, 10, 0] S2048x1x16
  slices_S2048x32x16_o0_11_0_S2048x21x16 : S2048x32x16.Slices ![0, 11, 0] S2048x21x16
  broadcasts_S2048x1x16_S2048x21x16 : S2048x1x16.Broadcasts S2048x21x16
  reduces_S2048x21x16_S2048x21 : S2048x21x16.Reduces [2] S2048x21
  inb_S2048x496_S2048x21_0_265 : ∀ a, (![0, 265] : Fin 2 → Nat) a + S2048x21.size a ≤ S2048x496.size a
  h_S2048x21 : 0 < S2048x21.numel
  slices_S2048x32x16_o0_11_0_S2048x1x16 : S2048x32x16.Slices ![0, 11, 0] S2048x1x16
  slices_S2048x32x16_o0_12_0_S2048x20x16 : S2048x32x16.Slices ![0, 12, 0] S2048x20x16
  broadcasts_S2048x1x16_S2048x20x16 : S2048x1x16.Broadcasts S2048x20x16
  reduces_S2048x20x16_S2048x20 : S2048x20x16.Reduces [2] S2048x20
  inb_S2048x496_S2048x20_0_286 : ∀ a, (![0, 286] : Fin 2 → Nat) a + S2048x20.size a ≤ S2048x496.size a
  h_S2048x20 : 0 < S2048x20.numel
  slices_S2048x32x16_o0_12_0_S2048x1x16 : S2048x32x16.Slices ![0, 12, 0] S2048x1x16
  slices_S2048x32x16_o0_13_0_S2048x19x16 : S2048x32x16.Slices ![0, 13, 0] S2048x19x16
  broadcasts_S2048x1x16_S2048x19x16 : S2048x1x16.Broadcasts S2048x19x16
  reduces_S2048x19x16_S2048x19 : S2048x19x16.Reduces [2] S2048x19
  inb_S2048x496_S2048x19_0_306 : ∀ a, (![0, 306] : Fin 2 → Nat) a + S2048x19.size a ≤ S2048x496.size a
  h_S2048x19 : 0 < S2048x19.numel
  slices_S2048x32x16_o0_13_0_S2048x1x16 : S2048x32x16.Slices ![0, 13, 0] S2048x1x16
  slices_S2048x32x16_o0_14_0_S2048x18x16 : S2048x32x16.Slices ![0, 14, 0] S2048x18x16
  broadcasts_S2048x1x16_S2048x18x16 : S2048x1x16.Broadcasts S2048x18x16
  reduces_S2048x18x16_S2048x18 : S2048x18x16.Reduces [2] S2048x18
  inb_S2048x496_S2048x18_0_325 : ∀ a, (![0, 325] : Fin 2 → Nat) a + S2048x18.size a ≤ S2048x496.size a
  h_S2048x18 : 0 < S2048x18.numel
  slices_S2048x32x16_o0_14_0_S2048x1x16 : S2048x32x16.Slices ![0, 14, 0] S2048x1x16
  slices_S2048x32x16_o0_15_0_S2048x17x16 : S2048x32x16.Slices ![0, 15, 0] S2048x17x16
  broadcasts_S2048x1x16_S2048x17x16 : S2048x1x16.Broadcasts S2048x17x16
  reduces_S2048x17x16_S2048x17 : S2048x17x16.Reduces [2] S2048x17
  inb_S2048x496_S2048x17_0_343 : ∀ a, (![0, 343] : Fin 2 → Nat) a + S2048x17.size a ≤ S2048x496.size a
  h_S2048x17 : 0 < S2048x17.numel
  slices_S2048x32x16_o0_15_0_S2048x1x16 : S2048x32x16.Slices ![0, 15, 0] S2048x1x16
  slices_S2048x32x16_o0_16_0_S2048x16x16 : S2048x32x16.Slices ![0, 16, 0] S2048x16x16
  broadcasts_S2048x1x16_S2048x16x16 : S2048x1x16.Broadcasts S2048x16x16
  reduces_S2048x16x16_S2048x16 : S2048x16x16.Reduces [2] S2048x16
  inb_S2048x496_S2048x16_0_360 : ∀ a, (![0, 360] : Fin 2 → Nat) a + S2048x16.size a ≤ S2048x496.size a
  h_S2048x16 : 0 < S2048x16.numel
  slices_S2048x32x16_o0_16_0_S2048x1x16 : S2048x32x16.Slices ![0, 16, 0] S2048x1x16
  slices_S2048x32x16_o0_17_0_S2048x15x16 : S2048x32x16.Slices ![0, 17, 0] S2048x15x16
  broadcasts_S2048x1x16_S2048x15x16 : S2048x1x16.Broadcasts S2048x15x16
  reduces_S2048x15x16_S2048x15 : S2048x15x16.Reduces [2] S2048x15
  inb_S2048x496_S2048x15_0_376 : ∀ a, (![0, 376] : Fin 2 → Nat) a + S2048x15.size a ≤ S2048x496.size a
  h_S2048x15 : 0 < S2048x15.numel
  slices_S2048x32x16_o0_17_0_S2048x1x16 : S2048x32x16.Slices ![0, 17, 0] S2048x1x16
  slices_S2048x32x16_o0_18_0_S2048x14x16 : S2048x32x16.Slices ![0, 18, 0] S2048x14x16
  broadcasts_S2048x1x16_S2048x14x16 : S2048x1x16.Broadcasts S2048x14x16
  reduces_S2048x14x16_S2048x14 : S2048x14x16.Reduces [2] S2048x14
  inb_S2048x496_S2048x14_0_391 : ∀ a, (![0, 391] : Fin 2 → Nat) a + S2048x14.size a ≤ S2048x496.size a
  h_S2048x14 : 0 < S2048x14.numel
  slices_S2048x32x16_o0_18_0_S2048x1x16 : S2048x32x16.Slices ![0, 18, 0] S2048x1x16
  slices_S2048x32x16_o0_19_0_S2048x13x16 : S2048x32x16.Slices ![0, 19, 0] S2048x13x16
  broadcasts_S2048x1x16_S2048x13x16 : S2048x1x16.Broadcasts S2048x13x16
  reduces_S2048x13x16_S2048x13 : S2048x13x16.Reduces [2] S2048x13
  inb_S2048x496_S2048x13_0_405 : ∀ a, (![0, 405] : Fin 2 → Nat) a + S2048x13.size a ≤ S2048x496.size a
  h_S2048x13 : 0 < S2048x13.numel
  slices_S2048x32x16_o0_19_0_S2048x1x16 : S2048x32x16.Slices ![0, 19, 0] S2048x1x16
  slices_S2048x32x16_o0_20_0_S2048x12x16 : S2048x32x16.Slices ![0, 20, 0] S2048x12x16
  broadcasts_S2048x1x16_S2048x12x16 : S2048x1x16.Broadcasts S2048x12x16
  reduces_S2048x12x16_S2048x12 : S2048x12x16.Reduces [2] S2048x12
  inb_S2048x496_S2048x12_0_418 : ∀ a, (![0, 418] : Fin 2 → Nat) a + S2048x12.size a ≤ S2048x496.size a
  h_S2048x12 : 0 < S2048x12.numel
  slices_S2048x32x16_o0_20_0_S2048x1x16 : S2048x32x16.Slices ![0, 20, 0] S2048x1x16
  slices_S2048x32x16_o0_21_0_S2048x11x16 : S2048x32x16.Slices ![0, 21, 0] S2048x11x16
  broadcasts_S2048x1x16_S2048x11x16 : S2048x1x16.Broadcasts S2048x11x16
  reduces_S2048x11x16_S2048x11 : S2048x11x16.Reduces [2] S2048x11
  inb_S2048x496_S2048x11_0_430 : ∀ a, (![0, 430] : Fin 2 → Nat) a + S2048x11.size a ≤ S2048x496.size a
  h_S2048x11 : 0 < S2048x11.numel
  slices_S2048x32x16_o0_21_0_S2048x1x16 : S2048x32x16.Slices ![0, 21, 0] S2048x1x16
  slices_S2048x32x16_o0_22_0_S2048x10x16 : S2048x32x16.Slices ![0, 22, 0] S2048x10x16
  broadcasts_S2048x1x16_S2048x10x16 : S2048x1x16.Broadcasts S2048x10x16
  reduces_S2048x10x16_S2048x10 : S2048x10x16.Reduces [2] S2048x10
  inb_S2048x496_S2048x10_0_441 : ∀ a, (![0, 441] : Fin 2 → Nat) a + S2048x10.size a ≤ S2048x496.size a
  h_S2048x10 : 0 < S2048x10.numel
  slices_S2048x32x16_o0_22_0_S2048x1x16 : S2048x32x16.Slices ![0, 22, 0] S2048x1x16
  slices_S2048x32x16_o0_23_0_S2048x9x16 : S2048x32x16.Slices ![0, 23, 0] S2048x9x16
  broadcasts_S2048x1x16_S2048x9x16 : S2048x1x16.Broadcasts S2048x9x16
  reduces_S2048x9x16_S2048x9 : S2048x9x16.Reduces [2] S2048x9
  inb_S2048x496_S2048x9_0_451 : ∀ a, (![0, 451] : Fin 2 → Nat) a + S2048x9.size a ≤ S2048x496.size a
  h_S2048x9 : 0 < S2048x9.numel
  slices_S2048x32x16_o0_23_0_S2048x1x16 : S2048x32x16.Slices ![0, 23, 0] S2048x1x16
  slices_S2048x32x16_o0_24_0_S2048x8x16 : S2048x32x16.Slices ![0, 24, 0] S2048x8x16
  broadcasts_S2048x1x16_S2048x8x16 : S2048x1x16.Broadcasts S2048x8x16
  reduces_S2048x8x16_S2048x8 : S2048x8x16.Reduces [2] S2048x8
  inb_S2048x496_S2048x8_0_460 : ∀ a, (![0, 460] : Fin 2 → Nat) a + S2048x8.size a ≤ S2048x496.size a
  h_S2048x8 : 0 < S2048x8.numel
  slices_S2048x32x16_o0_24_0_S2048x1x16 : S2048x32x16.Slices ![0, 24, 0] S2048x1x16
  slices_S2048x32x16_o0_25_0_S2048x7x16 : S2048x32x16.Slices ![0, 25, 0] S2048x7x16
  broadcasts_S2048x1x16_S2048x7x16 : S2048x1x16.Broadcasts S2048x7x16
  reduces_S2048x7x16_S2048x7 : S2048x7x16.Reduces [2] S2048x7
  inb_S2048x496_S2048x7_0_468 : ∀ a, (![0, 468] : Fin 2 → Nat) a + S2048x7.size a ≤ S2048x496.size a
  h_S2048x7 : 0 < S2048x7.numel
  slices_S2048x32x16_o0_25_0_S2048x1x16 : S2048x32x16.Slices ![0, 25, 0] S2048x1x16
  slices_S2048x32x16_o0_26_0_S2048x6x16 : S2048x32x16.Slices ![0, 26, 0] S2048x6x16
  broadcasts_S2048x1x16_S2048x6x16 : S2048x1x16.Broadcasts S2048x6x16
  reduces_S2048x6x16_S2048x6 : S2048x6x16.Reduces [2] S2048x6
  inb_S2048x496_S2048x6_0_475 : ∀ a, (![0, 475] : Fin 2 → Nat) a + S2048x6.size a ≤ S2048x496.size a
  h_S2048x6 : 0 < S2048x6.numel
  slices_S2048x32x16_o0_26_0_S2048x1x16 : S2048x32x16.Slices ![0, 26, 0] S2048x1x16
  slices_S2048x32x16_o0_27_0_S2048x5x16 : S2048x32x16.Slices ![0, 27, 0] S2048x5x16
  broadcasts_S2048x1x16_S2048x5x16 : S2048x1x16.Broadcasts S2048x5x16
  reduces_S2048x5x16_S2048x5 : S2048x5x16.Reduces [2] S2048x5
  inb_S2048x496_S2048x5_0_481 : ∀ a, (![0, 481] : Fin 2 → Nat) a + S2048x5.size a ≤ S2048x496.size a
  h_S2048x5 : 0 < S2048x5.numel
  slices_S2048x32x16_o0_27_0_S2048x1x16 : S2048x32x16.Slices ![0, 27, 0] S2048x1x16
  slices_S2048x32x16_o0_28_0_S2048x4x16 : S2048x32x16.Slices ![0, 28, 0] S2048x4x16
  broadcasts_S2048x1x16_S2048x4x16 : S2048x1x16.Broadcasts S2048x4x16
  reduces_S2048x4x16_S2048x4 : S2048x4x16.Reduces [2] S2048x4
  inb_S2048x496_S2048x4_0_486 : ∀ a, (![0, 486] : Fin 2 → Nat) a + S2048x4.size a ≤ S2048x496.size a
  h_S2048x4 : 0 < S2048x4.numel
  slices_S2048x32x16_o0_28_0_S2048x1x16 : S2048x32x16.Slices ![0, 28, 0] S2048x1x16
  slices_S2048x32x16_o0_29_0_S2048x3x16 : S2048x32x16.Slices ![0, 29, 0] S2048x3x16
  broadcasts_S2048x1x16_S2048x3x16 : S2048x1x16.Broadcasts S2048x3x16
  reduces_S2048x3x16_S2048x3 : S2048x3x16.Reduces [2] S2048x3
  inb_S2048x496_S2048x3_0_490 : ∀ a, (![0, 490] : Fin 2 → Nat) a + S2048x3.size a ≤ S2048x496.size a
  h_S2048x3 : 0 < S2048x3.numel
  slices_S2048x32x16_o0_29_0_S2048x1x16 : S2048x32x16.Slices ![0, 29, 0] S2048x1x16
  slices_S2048x32x16_o0_30_0_S2048x2x16 : S2048x32x16.Slices ![0, 30, 0] S2048x2x16
  broadcasts_S2048x1x16_S2048x2x16 : S2048x1x16.Broadcasts S2048x2x16
  reduces_S2048x2x16_S2048x2 : S2048x2x16.Reduces [2] S2048x2
  inb_S2048x496_S2048x2_0_493 : ∀ a, (![0, 493] : Fin 2 → Nat) a + S2048x2.size a ≤ S2048x496.size a
  h_S2048x2 : 0 < S2048x2.numel
  slices_S2048x32x16_o0_30_0_S2048x1x16 : S2048x32x16.Slices ![0, 30, 0] S2048x1x16
  slices_S2048x32x16_o0_31_0_S2048x1x16 : S2048x32x16.Slices ![0, 31, 0] S2048x1x16
  reduces_S2048x1x16_S2048x1 : S2048x1x16.Reduces [2] S2048x1
  inb_S2048x496_S2048x1_0_495 : ∀ a, (![0, 495] : Fin 2 → Nat) a + S2048x1.size a ≤ S2048x496.size a
  h_S2048x1 : 0 < S2048x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32x16.size a ≤ S16384x32x16.size a
  hwx0_0 : ∀ i : grid0.Coords, EltTy.bits .f32 = 32 ∨ (Rect.block (s := S16384x32x16) S2048x32x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x496.size a ≤ S16384x496.size a
  hwx0_1 : ∀ i : grid0.Coords, EltTy.bits .f32 = 32 ∨ (Rect.block (s := S16384x496) S2048x496.size (cc0_transform_1 i) (hinb0_1 i)).WholeWords (EltTy.packing .f32)

variable [Facts₀]

abbrev win0_0 : Pipeline.Window sig grid0 :=
  Pipeline.Window.ofSpec (Memref.whole main_arg0) S2048x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x496.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x16 : Shape := ⟨3, ![16384, 32, 16]⟩
abbrev S496 : Shape := ⟨1, ![496]⟩
abbrev S_ : Shape := ⟨0, ![]⟩
abbrev S496x1 : Shape := ⟨2, ![496, 1]⟩
abbrev S16384x496x16 : Shape := ⟨3, ![16384, 496, 16]⟩
abbrev S16384x496 : Shape := ⟨2, ![16384, 496]⟩

abbrev nBuf : Space → Nat
  | .hbm => 20
  | .vmem => 0
  | .smem => 0
  | _ => 0

abbrev bufTy : (tb : Table) → Fin (tcTables nBuf tb) → BufTy
  | .hbm, ⟨0, _⟩ => ⟨S16384x32x16, .f32⟩
  | .hbm, ⟨1, _⟩ => ⟨S496, .i32⟩
  | .hbm, ⟨2, _⟩ => ⟨S496, .i1⟩
  | .hbm, ⟨3, _⟩ => ⟨S496, .i32⟩
  | .hbm, ⟨4, _⟩ => ⟨S496, .i1⟩
  | .hbm, ⟨5, _⟩ => ⟨S_, .i32⟩
  | .hbm, ⟨6, _⟩ => ⟨S496, .i32⟩
  | .hbm, ⟨7, _⟩ => ⟨S496, .i32⟩
  | .hbm, ⟨8, _⟩ => ⟨S496, .i32⟩
  | .hbm, ⟨9, _⟩ => ⟨S496x1, .i32⟩
  | .hbm, ⟨10, _⟩ => ⟨S16384x496x16, .f32⟩
  | .hbm, ⟨11, _⟩ => ⟨S_, .i32⟩
  | .hbm, ⟨12, _⟩ => ⟨S496, .i32⟩
  | .hbm, ⟨13, _⟩ => ⟨S496, .i32⟩
  | .hbm, ⟨14, _⟩ => ⟨S496, .i32⟩
  | .hbm, ⟨15, _⟩ => ⟨S496x1, .i32⟩
  | .hbm, ⟨16, _⟩ => ⟨S16384x496x16, .f32⟩
  | .hbm, ⟨17, _⟩ => ⟨S16384x496x16, .f32⟩
  | .hbm, ⟨18, _⟩ => ⟨S_, .f32⟩
  | .hbm, ⟨19, _⟩ => ⟨S16384x496, .f32⟩
  | _, _ => ⟨S16384x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S496 : S_.BroadcastsInDim S496 (![] : Fin 0 → Fin S496.rank)
  bcast_S496_S496x1_0 : S496.BroadcastsInDim S496x1 (![0] : Fin 1 → Fin S496x1.rank)
  reducesTo_S16384x496x16_S16384x496_d2 : S16384x496x16.ReducesTo [2] S16384x496
  h_S_ : 0 < S_.numel
  gather_S16384x32x16_S496x1_S16384x496x16_02_1_n_n_1_1_16384116_wf : GatherDims.WF S16384x32x16 S496x1 S16384x496x16 [0, 2] [1] [] [1] [] 1 ![16384, 1, 16]

variable [Facts₀]

def gather_S16384x32x16_S496x1_S16384x496x16_02_1_n_n_1_1_16384116 : GatherDims S16384x32x16 S496x1 S16384x496x16 where
  offsetDims := [0, 2]
  collapsedSliceDims := [1]
  operandBatchingDims := []
  startIndicesBatchingDims := []
  startIndexMap := [1]
  indexVectorDim := 1
  sliceSizes := ![16384, 1, 16]
  wf := gather_S16384x32x16_S496x1_S16384x496x16_02_1_n_n_1_1_16384116_wf

class Facts : Prop extends Facts₀ where

variable [Facts]
-- ==== Proof.LibRowPairDot.lean ====
/-
  One row of a block multiplied against a run of its rows and summed along the last axis, read at an index.

  For a block `x : [B, R, D]`, take row `i` as a `[B, 1, D]` slice, rows `j … j + W - 1` as a `[B, W, D]`
  slice, repeat the single row `W` times, multiply elementwise and add along the last axis.  The result, a
  `[B, W]` array, holds at `(b, q)` the inner product of rows `i` and `j + q` of batch entry `b`:
  `∑ d, x (b, i, d) * x (b, j + q, d)`.  The second statement is the same with `W = 1` and no repetition.
  Only the definition of each operation at an index is used; no law of the extended reals.
-/
import Idealize.ShloMosaic.Lib.Pipeline.Value
import Idealize.ShloMosaic.Lib.ValueIdx
import Idealize.ShloMosaic.PureOps.Ideal.Laws

noncomputable section

open scoped BigOperators

namespace Cert.Lib.RowPairDot

open Idealize.ShloMosaic Idealize.ShloMosaic.ValueIdx

variable {B R D W : Nat}

/-- Row `i` against rows `j …`: at `(b, q)` the inner product of rows `i` and `j + q`. -/
theorem rowRun_apply (i j : Nat) (x : FVec Ideal ⟨3, ![B, R, D]⟩ .f32)
    (h1 : Shape.Slices ⟨3, ![B, R, D]⟩ ![0, i, 0] ⟨3, ![B, 1, D]⟩)
    (h2 : Shape.Slices ⟨3, ![B, R, D]⟩ ![0, j, 0] ⟨3, ![B, W, D]⟩)
    (hb : Shape.Broadcasts ⟨3, ![B, 1, D]⟩ ⟨3, ![B, W, D]⟩)
    (hr : Shape.Reduces ⟨3, ![B, W, D]⟩ [2] ⟨2, ![B, W]⟩)
    (hφ : FKind.Formats .f32) (hacc : (0x00000000#32 : BitVec 32) = FKind.add.neutral .f32 hφ)
    (b : Fin B) (q : Fin W) (hi : i < R) (hj : j + q.val < R) :
    multiReduction .add [2] ⟨2, ![B, W]⟩
        (mulf (broadcastTo ⟨3, ![B, W, D]⟩ (extractStridedSlice ⟨3, ![B, 1, D]⟩ ![0, i, 0] x h1) hb)
          (extractStridedSlice ⟨3, ![B, W, D]⟩ ![0, j, 0] x h2))
        0x00000000#32 hr hφ hacc (ix2 b q)
      = ∑ d : Fin D, x (ix3 b ⟨i, hi⟩ d) * x (ix3 b ⟨j + q.val, hj⟩ d) := by
  rw [Ideal.multiReduction_add_single]
  refine Finset.sum_congr rfl fun d _ => ?_
  rw [mulf_apply]
  congr 1
  · refine (broadcastTo_apply _ hb _ (ix3 b (0 : Fin 1) d) ?_).trans ?_
    · intro a
      match a with
      | ⟨0, _⟩ =>
        show b.val = if B = 1 then 0 else b.val
        split_ifs with h
        · have := b.isLt; omega
        · rfl
      | ⟨1, _⟩ => rfl
      | ⟨2, _⟩ =>
        show d.val = if D = 1 then 0 else d.val
        split_ifs with h
        · have : d.val < D := d.isLt
          omega
        · rfl
    · refine extractStridedSlice_apply _ x h1 _ _ fun a => ?_
      match a with
      | ⟨0, _⟩ => show b.val = 0 + b.val; omega
      | ⟨1, _⟩ => show i = i + 0; omega
      | ⟨2, _⟩ => show d.val = 0 + d.val; omega
  · refine extractStridedSlice_apply _ x h2 _ _ fun a => ?_
    match a with
    | ⟨0, _⟩ => show b.val = 0 + b.val; omega
    | ⟨1, _⟩ => show j + q.val = j + q.val; rfl
    | ⟨2, _⟩ => show d.val = 0 + d.val; omega

/-- Row `i` against the single row `j`, with nothing repeated: at `(b, 0)` their inner product. -/
theorem rowOne_apply (i j : Nat) (x : FVec Ideal ⟨3, ![B, R, D]⟩ .f32)
    (h1 : Shape.Slices ⟨3, ![B, R, D]⟩ ![0, i, 0] ⟨3, ![B, 1, D]⟩)
    (h2 : Shape.Slices ⟨3, ![B, R, D]⟩ ![0, j, 0] ⟨3, ![B, 1, D]⟩)
    (hr : Shape.Reduces ⟨3, ![B, 1, D]⟩ [2] ⟨2, ![B, 1]⟩)
    (hφ : FKind.Formats .f32) (hacc : (0x00000000#32 : BitVec 32) = FKind.add.neutral .f32 hφ)
    (b : Fin B) (q : Fin 1) (hi : i < R) (hj : j + q.val < R) :
    multiReduction .add [2] ⟨2, ![B, 1]⟩
        (mulf (extractStridedSlice ⟨3, ![B, 1, D]⟩ ![0, i, 0] x h1)
          (extractStridedSlice ⟨3, ![B, 1, D]⟩ ![0, j, 0] x h2))
        0x00000000#32 hr hφ hacc (ix2 b q)
      = ∑ d : Fin D, x (ix3 b ⟨i, hi⟩ d) * x (ix3 b ⟨j + q.val, hj⟩ d) := by
  rw [Ideal.multiReduction_add_single]
  refine Finset.sum_congr rfl fun d _ => ?_
  rw [mulf_apply]
  have hq : q.val = 0 := by have := q.isLt; omega
  congr 1
  · refine extractStridedSlice_apply _ x h1 _ _ fun a => ?_
    match a with
    | ⟨0, _⟩ => show b.val = 0 + b.val; omega
    | ⟨1, _⟩ => show i = i + q.val; omega
    | ⟨2, _⟩ => show d.val = 0 + d.val; omega
  · refine extractStridedSlice_apply _ x h2 _ _ fun a => ?_
    match a with
    | ⟨0, _⟩ => show b.val = 0 + b.val; omega
    | ⟨1, _⟩ => show j + q.val = j + q.val; rfl
    | ⟨2, _⟩ => show d.val = 0 + d.val; omega

end Cert.Lib.RowPairDot

end
-- ==== Proof.PairSpec.lean ====
/-
  The pairwise inner products of the rows of each batch entry, as one function of the whole array.

  For `x : [B, 32, 16]` the result is `[B, 496]`: column `p` of batch entry `b` holds the inner product
  `∑ d, x (b, i, d) * x (b, j, d)` of the `p`-th pair `i < j` of rows, the pairs taken in lexicographic order
  `(0,1), (0,2), …, (0,31), (1,2), …, (30,31)`.  Row `k` owns the `31 - k` consecutive columns starting at
  `k (63 - k) / 2`; the pair at column `p` is found by walking the rows and subtracting their widths.
-/
import Idealize.ShloMosaic.Lib.ValueIdx

noncomputable section

open scoped BigOperators

namespace Cert.PairSpec

open Idealize.ShloMosaic Idealize.ShloMosaic.ValueIdx

/-- Walk the rows from row `k` with `p` columns still to skip: if `p` falls among row `k`'s `31 - k` pairs it is
    `(k, k + 1 + p)`, else go on to the next row (`n` bounds the walk). -/
def pairFrom : Nat → Nat → Nat → Nat × Nat
  | 0, k, p => (k, k + 1 + p)
  | n + 1, k, p => if p < 31 - k then (k, k + 1 + p) else pairFrom n (k + 1) (p - (31 - k))

/-- The `p`-th pair `i < j` of `0 … 31` in lexicographic order. -/
def pair (p : Nat) : Nat × Nat := pairFrom 31 0 p

/-- The first column of row `k`: the rows before it hold `31 + 30 + … + (32 - k)` pairs. -/
def rowStart (k : Nat) : Nat := k * (63 - k) / 2

/-- Both members of each of the 496 pairs are rows of the array. -/
theorem pair_lt : ∀ p, p < 496 → (pair p).1 < 32 ∧ (pair p).2 < 32 := by decide +kernel

/-- Row `k`'s columns hold the pairs `(k, k + 1), (k, k + 2), …, (k, 31)` in order. -/
theorem pair_run : ∀ k, k < 31 → ∀ q, q < 31 - k → pair (rowStart k + q) = (k, k + 1 + q) := by decide +kernel

/-- The first member of the pair at column `p`. -/
def rowOf (p : Fin 496) : Fin 32 := ⟨(pair p.val).1, (pair_lt p.val p.isLt).1⟩
/-- The second member of the pair at column `p`. -/
def colOf (p : Fin 496) : Fin 32 := ⟨(pair p.val).2, (pair_lt p.val p.isLt).2⟩

variable {B : Nat}

/-- The pairwise inner products of `x`'s rows, batch entry by batch entry. -/
def pairDots (x : (⟨3, ![B, 32, 16]⟩ : Shape).Idx → EReal) : (⟨2, ![B, 496]⟩ : Shape).Idx → EReal :=
  fun y => ∑ d : Fin 16,
    x (ix3 (⟨(y 0).val, idx2_lt0 y⟩ : Fin B) (rowOf ⟨(y 1).val, idx2_lt1 y⟩) d)
      * x (ix3 (⟨(y 0).val, idx2_lt0 y⟩ : Fin B) (colOf ⟨(y 1).val, idx2_lt1 y⟩) d)

/-- At an index whose batch coordinate is `b` and whose column holds the pair `(i, j)`, the result is the inner
    product of rows `i` and `j` of batch entry `b`. -/
theorem pairDots_at (x : (⟨3, ![B, 32, 16]⟩ : Shape).Idx → EReal) (y : (⟨2, ![B, 496]⟩ : Shape).Idx)
    (b : Fin B) (i j : Nat) (hi : i < 32) (hj : j < 32) (hb : (y 0).val = b.val) (hp : pair (y 1).val = (i, j)) :
    pairDots x y = ∑ d : Fin 16, x (ix3 b ⟨i, hi⟩ d) * x (ix3 b ⟨j, hj⟩ d) := by
  unfold pairDots
  have e0 : (⟨(y 0).val, idx2_lt0 y⟩ : Fin B) = b := Fin.ext hb
  have e1 : rowOf ⟨(y 1).val, idx2_lt1 y⟩ = ⟨i, hi⟩ := Fin.ext (by show (pair (y 1).val).1 = i; rw [hp])
  have e2 : colOf ⟨(y 1).val, idx2_lt1 y⟩ = ⟨j, hj⟩ := Fin.ext (by show (pair (y 1).val).2 = j; rw [hp])
  rw [e0, e1, e2]

/-- The result of a batch block is the block of the result: if `x` is the `B` batch entries of `X` from entry `o` on,
    the pairwise inner products of `x` at `(b, p)` are those of `X` at `(o + b, p)`. -/
theorem pairDots_block {B' : Nat} (X : (⟨3, ![B', 32, 16]⟩ : Shape).Idx → EReal)
    (x : (⟨3, ![B, 32, 16]⟩ : Shape).Idx → EReal) (o : Nat)
    (hx : ∀ (b : Fin B) (r : Fin 32) (d : Fin 16) (hb : o + b.val < B'), x (ix3 b r d) = X (ix3 ⟨o + b.val, hb⟩ r d))
    (j : (⟨2, ![B, 496]⟩ : Shape).Idx) (i : (⟨2, ![B', 496]⟩ : Shape).Idx)
    (h0 : (i 0).val = o + (j 0).val) (h1 : (i 1).val = (j 1).val) : pairDots x j = pairDots X i := by
  unfold pairDots
  have hb : o + (j 0).val < B' := by rw [← h0]; exact idx2_lt0 i
  have e0 : (⟨(i 0).val, idx2_lt0 i⟩ : Fin B') = ⟨o + (j 0).val, hb⟩ := Fin.ext h0
  have e1 : (⟨(i 1).val, idx2_lt1 i⟩ : Fin 496) = ⟨(j 1).val, idx2_lt1 j⟩ := Fin.ext h1
  rw [e0, e1]
  refine Finset.sum_congr rfl fun d _ => ?_
  rw [hx ⟨(j 0).val, idx2_lt0 j⟩ _ _ hb, hx ⟨(j 0).val, idx2_lt0 j⟩ _ _ hb]

end Cert.PairSpec

end
-- ==== Proof.KernelPieces.lean ====
/-
  A value stored by the kernel body is a rectangle of ONE function of the output block's index.

  The body loads the `[2048, 32, 16]` input block once and makes 31 stores into the `[2048, 496]` output block:
  for each row `k = 0 … 30` it multiplies row `k` (repeated) against rows `k + 1 … 31`, adds along the last axis,
  and stores the `[2048, 31 - k]` result at columns `k (63 - k) / 2 …`.  Each stored value is the matching
  rectangle of the pairwise inner products `pairDots` of the input block's rows, because column
  `k (63 - k) / 2 + q` is where the pair `(k, k + 1 + q)` sits in the lexicographic order.  This module has the
  statement for a general row, offset and width; it is used once per store.
-/
import proofs.«143081_j86517821214535_1_alg».proof.Proof.Gen.KernelIdeal.Skeleton
import proofs.«143081_j86517821214535_1_alg».proof.Proof.LibRowPairDot
import proofs.«143081_j86517821214535_1_alg».proof.Proof.PairSpec

noncomputable section

open scoped BigOperators

namespace Cert.KernelIdeal.Hand

open Cert.KernelIdeal Cert.KernelIdeal.Gen Idealize.ShloMosaic Idealize.ShloMosaic.ValueIdx
open Cert.PairSpec Cert.Lib.RowPairDot

/-- A `[2048, w]` value that holds, at `(b, q)`, the inner product of rows `k` and `j + q` of the input block,
    stored at columns `off …` where the pairs `(k, j + q)` sit, is the rectangle of `pairDots` under the store:
    the store's rectangle sends `(b, q)` to `(b, off + q)`. -/
theorem piece_of_rows (k j off w : Nat) (x0 : Vec Ideal S2048x32x16 .f32)
    (pay : (⟨2, ![2048, w]⟩ : Shape).Idx → EReal)
    (inb : ∀ a, (![0, off] : Fin 2 → Nat) a + (![2048, w] : Fin 2 → Nat) a ≤ S2048x496.size a)
    (hpay : ∀ (b : Fin 2048) (q : Fin w) (hi : k < 32) (hj : j + q.val < 32),
      pay (ix2 b q) = ∑ d : Fin 16, x0 (ix3 b ⟨k, hi⟩ d) * x0 (ix3 b ⟨j + q.val, hj⟩ d))
    (htab : ∀ q, q < w → pair (off + q) = (k, j + q)) (hk : k < 32) (hjw : j + w ≤ 32)
    (x : (⟨2, ![2048, w]⟩ : Shape).Idx) :
    pay x = pairDots x0 ((Rect.unit (s := S2048x496) ![0, off] ![2048, w] inb).emb x) := by
  obtain ⟨b, q, rfl⟩ : ∃ (b : Fin 2048) (q : Fin w), x = ix2 b q := ⟨x 0, x 1, eq_ix2 x⟩
  have hq := q.isLt
  rw [pairDots_at x0 _ b k (j + q.val) hk (by omega) ?_ ?_]
  · exact hpay b q hk (by omega)
  · show 0 + 1 * b.val = b.val
    omega
  · show pair (off + 1 * q.val) = (k, j + q.val)
    rw [Nat.one_mul]
    exact htab q.val hq

end Cert.KernelIdeal.Hand

end
-- ==== Proof.KernelPieceTable.lean ====
/- `piece_of_rows` (KernelPieces.lean), one per store of the kernel body. Row `k` is multiplied against rows `k + 1 … 31`
   and the `31 - k` inner products are stored at columns `k (63 - k) / 2 …`, where the pairs `(k, k + 1 + q)` sit. -/
import proofs.«143081_j86517821214535_1_alg».proof.Proof.KernelPieces

noncomputable section

namespace Cert.KernelIdeal.Hand

open Cert.KernelIdeal Cert.KernelIdeal.Gen Idealize.ShloMosaic Idealize.ShloMosaic.ValueIdx
open Cert.PairSpec Cert.Lib.RowPairDot

/-- Row 0 against rows 1 … 31: columns 0 … 30 of the block. -/
theorem piece0 (x0 : Vec Ideal S2048x32x16 .f32) (x : S2048x31.Idx) :
    (k0_pay3 x0) x = pairDots x0 ((Rect.unit (s := S2048x496) ![0, 0] S2048x31.size inb_S2048x496_S2048x31_0_0).emb x) :=
  piece_of_rows 0 1 0 31 x0 (k0_pay3 x0) inb_S2048x496_S2048x31_0_0
    (fun b q hi hj => by unfold k0_pay3; exact rowRun_apply 0 1 x0 _ _ _ _ _ _ b q hi hj)
    (fun q hq => pair_run 0 (by decide) q hq) (by decide) (by decide) x

/-- Row 1 against rows 2 … 31: columns 31 … 60 of the block. -/
theorem piece1 (x0 : Vec Ideal S2048x32x16 .f32) (x : S2048x30.Idx) :
    (k0_pay4 x0) x = pairDots x0 ((Rect.unit (s := S2048x496) ![0, 31] S2048x30.size inb_S2048x496_S2048x30_0_31).emb x) :=
  piece_of_rows 1 2 31 30 x0 (k0_pay4 x0) inb_S2048x496_S2048x30_0_31
    (fun b q hi hj => by unfold k0_pay4; exact rowRun_apply 1 2 x0 _ _ _ _ _ _ b q hi hj)
    (fun q hq => pair_run 1 (by decide) q hq) (by decide) (by decide) x

/-- Row 2 against rows 3 … 31: columns 61 … 89 of the block. -/
theorem piece2 (x0 : Vec Ideal S2048x32x16 .f32) (x : S2048x29.Idx) :
    (k0_pay5 x0) x = pairDots x0 ((Rect.unit (s := S2048x496) ![0, 61] S2048x29.size inb_S2048x496_S2048x29_0_61).emb x) :=
  piece_of_rows 2 3 61 29 x0 (k0_pay5 x0) inb_S2048x496_S2048x29_0_61
    (fun b q hi hj => by unfold k0_pay5; exact rowRun_apply 2 3 x0 _ _ _ _ _ _ b q hi hj)
    (fun q hq => pair_run 2 (by decide) q hq) (by decide) (by decide) x

/-- Row 3 against rows 4 … 31: columns 90 … 117 of the block. -/
theorem piece3 (x0 : Vec Ideal S2048x32x16 .f32) (x : S2048x28.Idx) :
    (k0_pay6 x0) x = pairDots x0 ((Rect.unit (s := S2048x496) ![0, 90] S2048x28.size inb_S2048x496_S2048x28_0_90).emb x) :=
  piece_of_rows 3 4 90 28 x0 (k0_pay6 x0) inb_S2048x496_S2048x28_0_90
    (fun b q hi hj => by unfold k0_pay6; exact rowRun_apply 3 4 x0 _ _ _ _ _ _ b q hi hj)
    (fun q hq => pair_run 3 (by decide) q hq) (by decide) (by decide) x

/-- Row 4 against rows 5 … 31: columns 118 … 144 of the block. -/
theorem piece4 (x0 : Vec Ideal S2048x32x16 .f32) (x : S2048x27.Idx) :
    (k0_pay7 x0) x = pairDots x0 ((Rect.unit (s := S2048x496) ![0, 118] S2048x27.size inb_S2048x496_S2048x27_0_118).emb x) :=
  piece_of_rows 4 5 118 27 x0 (k0_pay7 x0) inb_S2048x496_S2048x27_0_118
    (fun b q hi hj => by unfold k0_pay7; exact rowRun_apply 4 5 x0 _ _ _ _ _ _ b q hi hj)
    (fun q hq => pair_run 4 (by decide) q hq) (by decide) (by decide) x

/-- Row 5 against rows 6 … 31: columns 145 … 170 of the block. -/
theorem piece5 (x0 : Vec Ideal S2048x32x16 .f32) (x : S2048x26.Idx) :
    (k0_pay9 (k0_pay8 x0)) x = pairDots x0 ((Rect.unit (s := S2048x496) ![0, 145] S2048x26.size inb_S2048x496_S2048x26_0_145).emb x) :=
  piece_of_rows 5 6 145 26 x0 (k0_pay9 (k0_pay8 x0)) inb_S2048x496_S2048x26_0_145
    (fun b q hi hj => by unfold k0_pay9 k0_pay8; exact rowRun_apply 5 6 x0 _ _ _ _ _ _ b q hi hj)
    (fun q hq => pair_run 5 (by decide) q hq) (by decide) (by decide) x

/-- Row 6 against rows 7 … 31: columns 171 … 195 of the block. -/
theorem piece6 (x0 : Vec Ideal S2048x32x16 .f32) (x : S2048x25.Idx) :
    (k0_pay10 x0) x = pairDots x0 ((Rect.unit (s := S2048x496) ![0, 171] S2048x25.size inb_S2048x496_S2048x25_0_171).emb x) :=
  piece_of_rows 6 7 171 25 x0 (k0_pay10 x0) inb_S2048x496_S2048x25_0_171
    (fun b q hi hj => by unfold k0_pay10; exact rowRun_apply 6 7 x0 _ _ _ _ _ _ b q hi hj)
    (fun q hq => pair_run 6 (by decide) q hq) (by decide) (by decide) x

/-- Row 7 against rows 8 … 31: columns 196 … 219 of the block. -/
theorem piece7 (x0 : Vec Ideal S2048x32x16 .f32) (x : S2048x24.Idx) :
    (k0_pay11 x0) x = pairDots x0 ((Rect.unit (s := S2048x496) ![0, 196] S2048x24.size inb_S2048x496_S2048x24_0_196).emb x) :=
  piece_of_rows 7 8 196 24 x0 (k0_pay11 x0) inb_S2048x496_S2048x24_0_196
    (fun b q hi hj => by unfold k0_pay11; exact rowRun_apply 7 8 x0 _ _ _ _ _ _ b q hi hj)
    (fun q hq => pair_run 7 (by decide) q hq) (by decide) (by decide) x

/-- Row 8 against rows 9 … 31: columns 220 … 242 of the block. -/
theorem piece8 (x0 : Vec Ideal S2048x32x16 .f32) (x : S2048x23.Idx) :
    (k0_pay12 x0) x = pairDots x0 ((Rect.unit (s := S2048x496) ![0, 220] S2048x23.size inb_S2048x496_S2048x23_0_220).emb x) :=
  piece_of_rows 8 9 220 23 x0 (k0_pay12 x0) inb_S2048x496_S2048x23_0_220
    (fun b q hi hj => by unfold k0_pay12; exact rowRun_apply 8 9 x0 _ _ _ _ _ _ b q hi hj)
    (fun q hq => pair_run 8 (by decide) q hq) (by decide) (by decide) x

/-- Row 9 against rows 10 … 31: columns 243 … 264 of the block. -/
theorem piece9 (x0 : Vec Ideal S2048x32x16 .f32) (x : S2048x22.Idx) :
    (k0_pay13 x0) x = pairDots x0 ((Rect.unit (s := S2048x496) ![0, 243] S2048x22.size inb_S2048x496_S2048x22_0_243).emb x) :=
  piece_of_rows 9 10 243 22 x0 (k0_pay13 x0) inb_S2048x496_S2048x22_0_243
    (fun b q hi hj => by unfold k0_pay13; exact rowRun_apply 9 10 x0 _ _ _ _ _ _ b q hi hj)
    (fun q hq => pair_run 9 (by decide) q hq) (by decide) (by decide) x

/-- Row 10 against rows 11 … 31: columns 265 … 285 of the block. -/
theorem piece10 (x0 : Vec Ideal S2048x32x16 .f32) (x : S2048x21.Idx) :
    (k0_pay14 x0) x = pairDots x0 ((Rect.unit (s := S2048x496) ![0, 265] S2048x21.size inb_S2048x496_S2048x21_0_265).emb x) :=
  piece_of_rows 10 11 265 21 x0 (k0_pay14 x0) inb_S2048x496_S2048x21_0_265
    (fun b q hi hj => by unfold k0_pay14; exact rowRun_apply 10 11 x0 _ _ _ _ _ _ b q hi hj)
    (fun q hq => pair_run 10 (by decide) q hq) (by decide) (by decide) x

/-- Row 11 against rows 12 … 31: columns 286 … 305 of the block. -/
theorem piece11 (x0 : Vec Ideal S2048x32x16 .f32) (x : S2048x20.Idx) :
    (k0_pay16 (k0_pay15 x0)) x = pairDots x0 ((Rect.unit (s := S2048x496) ![0, 286] S2048x20.size inb_S2048x496_S2048x20_0_286).emb x) :=
  piece_of_rows 11 12 286 20 x0 (k0_pay16 (k0_pay15 x0)) inb_S2048x496_S2048x20_0_286
    (fun b q hi hj => by unfold k0_pay16 k0_pay15; exact rowRun_apply 11 12 x0 _ _ _ _ _ _ b q hi hj)
    (fun q hq => pair_run 11 (by decide) q hq) (by decide) (by decide) x

/-- Row 12 against rows 13 … 31: columns 306 … 324 of the block. -/
theorem piece12 (x0 : Vec Ideal S2048x32x16 .f32) (x : S2048x19.Idx) :
    (k0_pay17 x0) x = pairDots x0 ((Rect.unit (s := S2048x496) ![0, 306] S2048x19.size inb_S2048x496_S2048x19_0_306).emb x) :=
  piece_of_rows 12 13 306 19 x0 (k0_pay17 x0) inb_S2048x496_S2048x19_0_306
    (fun b q hi hj => by unfold k0_pay17; exact rowRun_apply 12 13 x0 _ _ _ _ _ _ b q hi hj)
    (fun q hq => pair_run 12 (by decide) q hq) (by decide) (by decide) x

/-- Row 13 against rows 14 … 31: columns 325 … 342 of the block. -/
theorem piece13 (x0 : Vec Ideal S2048x32x16 .f32) (x : S2048x18.Idx) :
    (k0_pay18 x0) x = pairDots x0 ((Rect.unit (s := S2048x496) ![0, 325] S2048x18.size inb_S2048x496_S2048x18_0_325).emb x) :=
  piece_of_rows 13 14 325 18 x0 (k0_pay18 x0) inb_S2048x496_S2048x18_0_325
    (fun b q hi hj => by unfold k0_pay18; exact rowRun_apply 13 14 x0 _ _ _ _ _ _ b q hi hj)
    (fun q hq => pair_run 13 (by decide) q hq) (by decide) (by decide) x

/-- Row 14 against rows 15 … 31: columns 343 … 359 of the block. -/
theorem piece14 (x0 : Vec Ideal S2048x32x16 .f32) (x : S2048x17.Idx) :
    (k0_pay19 x0) x = pairDots x0 ((Rect.unit (s := S2048x496) ![0, 343] S2048x17.size inb_S2048x496_S2048x17_0_343).emb x) :=
  piece_of_rows 14 15 343 17 x0 (k0_pay19 x0) inb_S2048x496_S2048x17_0_343
    (fun b q hi hj => by unfold k0_pay19; exact rowRun_apply 14 15 x0 _ _ _ _ _ _ b q hi hj)
    (fun q hq => pair_run 14 (by decide) q hq) (by decide) (by decide) x

/-- Row 15 against rows 16 … 31: columns 360 … 375 of the block. -/
theorem piece15 (x0 : Vec Ideal S2048x32x16 .f32) (x : S2048x16.Idx) :
    (k0_pay20 x0) x = pairDots x0 ((Rect.unit (s := S2048x496) ![0, 360] S2048x16.size inb_S2048x496_S2048x16_0_360).emb x) :=
  piece_of_rows 15 16 360 16 x0 (k0_pay20 x0) inb_S2048x496_S2048x16_0_360
    (fun b q hi hj => by unfold k0_pay20; exact rowRun_apply 15 16 x0 _ _ _ _ _ _ b q hi hj)
    (fun q hq => pair_run 15 (by decide) q hq) (by decide) (by decide) x

/-- Row 16 against rows 17 … 31: columns 376 … 390 of the block. -/
theorem piece16 (x0 : Vec Ideal S2048x32x16 .f32) (x : S2048x15.Idx) :
    (k0_pay21 x0) x = pairDots x0 ((Rect.unit (s := S2048x496) ![0, 376] S2048x15.size inb_S2048x496_S2048x15_0_376).emb x) :=
  piece_of_rows 16 17 376 15 x0 (k0_pay21 x0) inb_S2048x496_S2048x15_0_376
    (fun b q hi hj => by unfold k0_pay21; exact rowRun_apply 16 17 x0 _ _ _ _ _ _ b q hi hj)
    (fun q hq => pair_run 16 (by decide) q hq) (by decide) (by decide) x

/-- Row 17 against rows 18 … 31: columns 391 … 404 of the block. -/
theorem piece17 (x0 : Vec Ideal S2048x32x16 .f32) (x : S2048x14.Idx) :
    (k0_pay23 (k0_pay22 x0)) x = pairDots x0 ((Rect.unit (s := S2048x496) ![0, 391] S2048x14.size inb_S2048x496_S2048x14_0_391).emb x) :=
  piece_of_rows 17 18 391 14 x0 (k0_pay23 (k0_pay22 x0)) inb_S2048x496_S2048x14_0_391
    (fun b q hi hj => by unfold k0_pay23 k0_pay22; exact rowRun_apply 17 18 x0 _ _ _ _ _ _ b q hi hj)
    (fun q hq => pair_run 17 (by decide) q hq) (by decide) (by decide) x

/-- Row 18 against rows 19 … 31: columns 405 … 417 of the block. -/
theorem piece18 (x0 : Vec Ideal S2048x32x16 .f32) (x : S2048x13.Idx) :
    (k0_pay24 x0) x = pairDots x0 ((Rect.unit (s := S2048x496) ![0, 405] S2048x13.size inb_S2048x496_S2048x13_0_405).emb x) :=
  piece_of_rows 18 19 405 13 x0 (k0_pay24 x0) inb_S2048x496_S2048x13_0_405
    (fun b q hi hj => by unfold k0_pay24; exact rowRun_apply 18 19 x0 _ _ _ _ _ _ b q hi hj)
    (fun q hq => pair_run 18 (by decide) q hq) (by decide) (by decide) x

/-- Row 19 against rows 20 … 31: columns 418 … 429 of the block. -/
theorem piece19 (x0 : Vec Ideal S2048x32x16 .f32) (x : S2048x12.Idx) :
    (k0_pay25 x0) x = pairDots x0 ((Rect.unit (s := S2048x496) ![0, 418] S2048x12.size inb_S2048x496_S2048x12_0_418).emb x) :=
  piece_of_rows 19 20 418 12 x0 (k0_pay25 x0) inb_S2048x496_S2048x12_0_418
    (fun b q hi hj => by unfold k0_pay25; exact rowRun_apply 19 20 x0 _ _ _ _ _ _ b q hi hj)
    (fun q hq => pair_run 19 (by decide) q hq) (by decide) (by decide) x

/-- Row 20 against rows 21 … 31: columns 430 … 440 of the block. -/
theorem piece20 (x0 : Vec Ideal S2048x32x16 .f32) (x : S2048x11.Idx) :
    (k0_pay26 x0) x = pairDots x0 ((Rect.unit (s := S2048x496) ![0, 430] S2048x11.size inb_S2048x496_S2048x11_0_430).emb x) :=
  piece_of_rows 20 21 430 11 x0 (k0_pay26 x0) inb_S2048x496_S2048x11_0_430
    (fun b q hi hj => by unfold k0_pay26; exact rowRun_apply 20 21 x0 _ _ _ _ _ _ b q hi hj)
    (fun q hq => pair_run 20 (by decide) q hq) (by decide) (by decide) x

/-- Row 21 against rows 22 … 31: columns 441 … 450 of the block. -/
theorem piece21 (x0 : Vec Ideal S2048x32x16 .f32) (x : S2048x10.Idx) :
    (k0_pay27 x0) x = pairDots x0 ((Rect.unit (s := S2048x496) ![0, 441] S2048x10.size inb_S2048x496_S2048x10_0_441).emb x) :=
  piece_of_rows 21 22 441 10 x0 (k0_pay27 x0) inb_S2048x496_S2048x10_0_441
    (fun b q hi hj => by unfold k0_pay27; exact rowRun_apply 21 22 x0 _ _ _ _ _ _ b q hi hj)
    (fun q hq => pair_run 21 (by decide) q hq) (by decide) (by decide) x

/-- Row 22 against rows 23 … 31: columns 451 … 459 of the block. -/
theorem piece22 (x0 : Vec Ideal S2048x32x16 .f32) (x : S2048x9.Idx) :
    (k0_pay28 x0) x = pairDots x0 ((Rect.unit (s := S2048x496) ![0, 451] S2048x9.size inb_S2048x496_S2048x9_0_451).emb x) :=
  piece_of_rows 22 23 451 9 x0 (k0_pay28 x0) inb_S2048x496_S2048x9_0_451
    (fun b q hi hj => by unfold k0_pay28; exact rowRun_apply 22 23 x0 _ _ _ _ _ _ b q hi hj)
    (fun q hq => pair_run 22 (by decide) q hq) (by decide) (by decide) x

/-- Row 23 against rows 24 … 31: columns 460 … 467 of the block. -/
theorem piece23 (x0 : Vec Ideal S2048x32x16 .f32) (x : S2048x8.Idx) :
    (k0_pay30 (k0_pay29 x0)) x = pairDots x0 ((Rect.unit (s := S2048x496) ![0, 460] S2048x8.size inb_S2048x496_S2048x8_0_460).emb x) :=
  piece_of_rows 23 24 460 8 x0 (k0_pay30 (k0_pay29 x0)) inb_S2048x496_S2048x8_0_460
    (fun b q hi hj => by unfold k0_pay30 k0_pay29; exact rowRun_apply 23 24 x0 _ _ _ _ _ _ b q hi hj)
    (fun q hq => pair_run 23 (by decide) q hq) (by decide) (by decide) x

/-- Row 24 against rows 25 … 31: columns 468 … 474 of the block. -/
theorem piece24 (x0 : Vec Ideal S2048x32x16 .f32) (x : S2048x7.Idx) :
    (k0_pay31 x0) x = pairDots x0 ((Rect.unit (s := S2048x496) ![0, 468] S2048x7.size inb_S2048x496_S2048x7_0_468).emb x) :=
  piece_of_rows 24 25 468 7 x0 (k0_pay31 x0) inb_S2048x496_S2048x7_0_468
    (fun b q hi hj => by unfold k0_pay31; exact rowRun_apply 24 25 x0 _ _ _ _ _ _ b q hi hj)
    (fun q hq => pair_run 24 (by decide) q hq) (by decide) (by decide) x

/-- Row 25 against rows 26 … 31: columns 475 … 480 of the block. -/
theorem piece25 (x0 : Vec Ideal S2048x32x16 .f32) (x : S2048x6.Idx) :
    (k0_pay32 x0) x = pairDots x0 ((Rect.unit (s := S2048x496) ![0, 475] S2048x6.size inb_S2048x496_S2048x6_0_475).emb x) :=
  piece_of_rows 25 26 475 6 x0 (k0_pay32 x0) inb_S2048x496_S2048x6_0_475
    (fun b q hi hj => by unfold k0_pay32; exact rowRun_apply 25 26 x0 _ _ _ _ _ _ b q hi hj)
    (fun q hq => pair_run 25 (by decide) q hq) (by decide) (by decide) x

/-- Row 26 against rows 27 … 31: columns 481 … 485 of the block. -/
theorem piece26 (x0 : Vec Ideal S2048x32x16 .f32) (x : S2048x5.Idx) :
    (k0_pay33 x0) x = pairDots x0 ((Rect.unit (s := S2048x496) ![0, 481] S2048x5.size inb_S2048x496_S2048x5_0_481).emb x) :=
  piece_of_rows 26 27 481 5 x0 (k0_pay33 x0) inb_S2048x496_S2048x5_0_481
    (fun b q hi hj => by unfold k0_pay33; exact rowRun_apply 26 27 x0 _ _ _ _ _ _ b q hi hj)
    (fun q hq => pair_run 26 (by decide) q hq) (by decide) (by decide) x

/-- Row 27 against rows 28 … 31: columns 486 … 489 of the block. -/
theorem piece27 (x0 : Vec Ideal S2048x32x16 .f32) (x : S2048x4.Idx) :
    (k0_pay34 x0) x = pairDots x0 ((Rect.unit (s := S2048x496) ![0, 486] S2048x4.size inb_S2048x496_S2048x4_0_486).emb x) :=
  piece_of_rows 27 28 486 4 x0 (k0_pay34 x0) inb_S2048x496_S2048x4_0_486
    (fun b q hi hj => by unfold k0_pay34; exact rowRun_apply 27 28 x0 _ _ _ _ _ _ b q hi hj)
    (fun q hq => pair_run 27 (by decide) q hq) (by decide) (by decide) x

/-- Row 28 against rows 29 … 31: columns 490 … 492 of the block. -/
theorem piece28 (x0 : Vec Ideal S2048x32x16 .f32) (x : S2048x3.Idx) :
    (k0_pay35 x0) x = pairDots x0 ((Rect.unit (s := S2048x496) ![0, 490] S2048x3.size inb_S2048x496_S2048x3_0_490).emb x) :=
  piece_of_rows 28 29 490 3 x0 (k0_pay35 x0) inb_S2048x496_S2048x3_0_490
    (fun b q hi hj => by unfold k0_pay35; exact rowRun_apply 28 29 x0 _ _ _ _ _ _ b q hi hj)
    (fun q hq => pair_run 28 (by decide) q hq) (by decide) (by decide) x

/-- Row 29 against rows 30 … 31: columns 493 … 494 of the block. -/
theorem piece29 (x0 : Vec Ideal S2048x32x16 .f32) (x : S2048x2.Idx) :
    (k0_pay1 (k0_pay36 x0)) x = pairDots x0 ((Rect.unit (s := S2048x496) ![0, 493] S2048x2.size inb_S2048x496_S2048x2_0_493).emb x) :=
  piece_of_rows 29 30 493 2 x0 (k0_pay1 (k0_pay36 x0)) inb_S2048x496_S2048x2_0_493
    (fun b q hi hj => by unfold k0_pay1 k0_pay36; exact rowRun_apply 29 30 x0 _ _ _ _ _ _ b q hi hj)
    (fun q hq => pair_run 29 (by decide) q hq) (by decide) (by decide) x

/-- Row 30 against row 31: column 495 of the block. -/
theorem piece30 (x0 : Vec Ideal S2048x32x16 .f32) (x : S2048x1.Idx) :
    (k0_pay2 x0) x = pairDots x0 ((Rect.unit (s := S2048x496) ![0, 495] S2048x1.size inb_S2048x496_S2048x1_0_495).emb x) :=
  piece_of_rows 30 31 495 1 x0 (k0_pay2 x0) inb_S2048x496_S2048x1_0_495
    (fun b q hi hj => by unfold k0_pay2; exact rowOne_apply 30 31 x0 _ _ _ _ _ b q hi hj)
    (fun q hq => pair_run 30 (by decide) q hq) (by decide) (by decide) x

end Cert.KernelIdeal.Hand

end
-- ==== Proof.KernelBlocks.lean ====
/-
  The kernel's result array after the run is the pairwise inner products of the argument's rows.

  At every grid point the body's 31 stores tile the `[2048, 496]` output block, and each stored value is the
  matching rectangle of the pairwise inner products of the point's `[2048, 32, 16]` input block; so the output
  block as a whole is that function of the input block.  Point `t`'s input block is batch entries
  `2048 t … 2048 t + 2047` of the argument and its output block is the same rows of the result, and the result of
  a batch block is the block of the result; the eight blocks cover the result array.
-/
import proofs.«143081_j86517821214535_1_alg».proof.Proof.Gen.KernelIdeal.Value
import proofs.«143081_j86517821214535_1_alg».proof.Proof.KernelPieceTable
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx
open Cert.PairSpec

variable (m : (ℓ : Loc nD τ sig) → Buf (Elt Ideal) ℓ) (ρ : Dev nD → PrngReg)

theorem hz3 : (![0, 0, 0] : Fin 3 → Nat) = fun _ => 0 := funext fun a => by fin_cases a <;> rfl

/-- What the body leaves in the output block, from an input block `x0`: the pairwise inner products of `x0`'s rows.
    Every index of the block is under one of the 31 stores, and each store's value is its rectangle of that one
    function. -/
theorem out_block (c : Dev nD) (i : grid0.Coords) (arg1 : Memref sig .tc .vmem S2048x32x16 .f32) (harg1 : arg1.IsWhole)
    (arg2 : Memref sig .tc .vmem S2048x496 .f32) (harg2 : arg2.IsWhole) (x0 : Vec Ideal S2048x32x16 .f32) :
    out0_A_1 c i arg1 harg1 arg2 harg2 x0 = pairDots (B := 2048) x0 := by
  unfold out0_A_1
  rw [View.read_writes_eq_canon _ _ _ (cover0_A_1 c i arg1 harg1 arg2 harg2 x0)]
  funext y
  refine View.canon_apply_of_pieces (pairDots (B := 2048) x0) _ ?_ y (cover0_A_1 c i arg1 harg1 arg2 harg2 x0 y)
  unfold kernelRun0_A
  dsimp only
  try sl_unfold_words
  simp only [View.readAt_eq_ld, harg1.read_unread, View.ld_unit_zero (S := S2048x32x16) hz3]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [piece30 x0, piece29 x0, piece28 x0, piece27 x0, piece26 x0, piece25 x0, piece24 x0, piece23 x0, piece22 x0,
    piece21 x0, piece20 x0, piece19 x0, piece18 x0, piece17 x0, piece16 x0, piece15 x0, piece14 x0, piece13 x0,
    piece12 x0, piece11 x0, piece10 x0, piece9 x0, piece8 x0, piece7 x0, piece6 x0, piece5 x0, piece4 x0, piece3 x0,
    piece2 x0, piece1 x0, piece0 x0]

/-- The printed index maps over the grid: point `t` takes batch block `t` of the argument and of the result. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Point `t`'s input block is batch entries `2048 t …` of the argument. -/
theorem iblk_apply (c : Dev nD) (t : Fin cfg0.N) (b : Fin 2048) (r : Fin 32) (d : Fin 16) (hb : t.val * 2048 + b.val < 16384) :
    (iblk m c 0 t : Vec Ideal S2048x32x16 .f32) (ix3 b r d)
      = (V m c main_arg0 : S16384x32x16.Idx → EReal) (ix3 ⟨t.val * 2048 + b.val, hb⟩ r d) := by
  obtain ⟨e0, e1, e2, -, -⟩ := idx_facts t
  unfold iblk
  rw [View.read_apply]
  show V m c main_arg0 _ = V m c main_arg0 _
  congr 1
  funext a
  apply Fin.ext
  match a with
  | ⟨0, _⟩ => show win0_0.index t (0 : Fin 3) * 2048 + 1 * b.val = t.val * 2048 + b.val; rw [e0]; omega
  | ⟨1, _⟩ => show win0_0.index t (1 : Fin 3) * 32 + 1 * r.val = r.val; rw [e1]; omega
  | ⟨2, _⟩ => show win0_0.index t (2 : Fin 3) * 16 + 1 * d.val = d.val; rw [e2]; omega

/-- What point `t` writes back is block `t` of the pairwise inner products of the whole argument. -/
theorem flushed_eq (c : Dev nD) (t : Fin cfg0.N) :
    (dats m 0 c).flushed 1 t
      = ((cfg0.win 1).blk t).view.read (Elt Ideal) (pairDots (B := 16384) (V m c main_arg0)) := by
  rw [flushed1_A, out_block]
  obtain ⟨-, -, -, e3, e4⟩ := idx_facts t
  have hN : t.val < 8 := Nat.lt_of_lt_of_eq t.isLt N_0
  funext j
  show pairDots (B := 2048) (iblk m c 0 t) j = pairDots (B := 16384) (V m c main_arg0) (((cfg0.win 1).blk t).view.emb j)
  refine pairDots_block (V m c main_arg0) (iblk m c 0 t) (t.val * 2048) (fun b r d hb => iblk_apply m c t b r d hb) j _ ?_ ?_
  · show win0_1.index t (0 : Fin 2) * 2048 + 1 * (j 0).val = t.val * 2048 + (j 0).val
    rw [e3]; omega
  · show win0_1.index t (1 : Fin 2) * 496 + 1 * (j 1).val = (j 1).val
    rw [e4]; omega

/-- An index of the result array is in point `t`'s block iff each coordinate is in the block's range on its axis. -/
theorem mem_blk (t : Fin cfg0.N) (i : S16384x496.Idx) :
    i ∈ ((cfg0.win 1).blk t).view.set ↔ ∀ a : Fin 2, win0_1.index t a * S2048x496.size a ≤ (i a).val ∧ (i a).val < win0_1.index t a * S2048x496.size a + S2048x496.size a := by
  show i ∈ ((View.whole main_v0).slice (win0_1.rect t)).set ↔ _
  rw [View.set_slice_whole, Rect.mem_set_unit]
  exact Iff.rfl

/-- Every index of the result array is in some point's block: batch entry `b` is in block `b / 2048`. -/
theorem covered (i : S16384x496.Idx) :
    ∃ t : Fin cfg0.N, (cfg0.win 1).flush t = true ∧ i ∈ ((cfg0.win 1).blk t).view.set := by
  have hi0 : (i 0).val < 16384 := (i 0).isLt
  have hi1 : (i 1).val < 496 := (i 1).isLt
  have hN : cfg0.N = 8 := N_0
  let t : Fin cfg0.N := ⟨(i 0).val / 2048, by rw [hN]; omega⟩
  obtain ⟨-, -, -, e3, e4⟩ := idx_facts t
  have ht : t.val = (i 0).val / 2048 := rfl
  refine ⟨t, flush0_1 t, ?_⟩
  rw [mem_blk]
  intro a
  match a with
  | ⟨0, _⟩ => show win0_1.index t (0 : Fin 2) * 2048 ≤ (i 0).val ∧ (i 0).val < win0_1.index t (0 : Fin 2) * 2048 + 2048; rw [e3, ht]; omega
  | ⟨1, _⟩ => show win0_1.index t (1 : Fin 2) * 496 ≤ (i 1).val ∧ (i 1).val < win0_1.index t (1 : Fin 2) * 496 + 496; rw [e4]; omega

/-- So the result array ends holding the pairwise inner products of the argument as launched. -/
theorem final (c : Dev nD) :
    (dats m 0 c).arrAt 1 cfg0.N = pairDots (B := 16384) (m ((c : Thread nD τ).loc main_arg0)) :=
  (dats m 0 c).arrAt_eq_of_cover 1 (pairDots (B := 16384) (V m c main_arg0)) (fun t _ => flushed_eq m c t) covered

/-- The run, read: the result array at the pairwise inner products of the argument, the argument unchanged. -/
theorem run : θ_run defs (onTc (τ := τ) (main (F := Ideal))) ⟨m, fun _ => 0, ρ⟩ fun r => ∀ c : Dev nD,
      r.2.mem ((c : Thread nD τ).loc main_v0) = pairDots (B := 16384) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hand

end
-- ==== Proof.RefOps.lean ====
/- 19 host operations copied in order from its printed @main, as a list, and that each touches only TensorCore buffers. -/
import proofs.«143081_j86517821214535_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [
    nullary main_c (fun i => lit0 (S496.rowMajor i)),
    nullary main_c_0 (constantI S496 1 0#1),
    nullary main_c_1 (fun i => lit1 (S496.rowMajor i)),
    nullary main_c_2 (constantI S496 1 0#1),
    nullary main_c_3 (constantI S_ 32 32#32),
    unary main_c_3 main_v0 (broadcastInDim S496 ![] bcast_S_S496 : (⟨S_, .i32⟩ : BufTy).Contents (Elt F) → (⟨S496, .i32⟩ : BufTy).Contents (Elt F)),
    binary main_c main_v0 main_v1 (addi : (⟨S496, .i32⟩ : BufTy).Contents (Elt F) → (⟨S496, .i32⟩ : BufTy).Contents (Elt F) → (⟨S496, .i32⟩ : BufTy).Contents (Elt F)),
    ternary main_c_0 main_v1 main_c main_v2 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v2 main_v3 (broadcastInDim S496x1 ![0] bcast_S496_S496x1_0 : (⟨S496, .i32⟩ : BufTy).Contents (Elt F) → (⟨S496x1, .i32⟩ : BufTy).Contents (Elt F)),
    binary main_arg0 main_v3 main_v4 ((fun x i => Host.gather gather_S16384x32x16_S496x1_S16384x496x16_02_1_n_n_1_1_16384116 x i) : (⟨S16384x32x16, .f32⟩ : BufTy).Contents (Elt F) → (⟨S496x1, .i32⟩ : BufTy).Contents (Elt F) → (⟨S16384x496x16, .f32⟩ : BufTy).Contents (Elt F)),
    nullary main_c_4 (constantI S_ 32 32#32),
    unary main_c_4 main_v5 (broadcastInDim S496 ![] bcast_S_S496 : (⟨S_, .i32⟩ : BufTy).Contents (Elt F) → (⟨S496, .i32⟩ : BufTy).Contents (Elt F)),
    binary main_c_1 main_v5 main_v6 (addi : (⟨S496, .i32⟩ : BufTy).Contents (Elt F) → (⟨S496, .i32⟩ : BufTy).Contents (Elt F) → (⟨S496, .i32⟩ : BufTy).Contents (Elt F)),
    ternary main_c_2 main_v6 main_c_1 main_v7 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v7 main_v8 (broadcastInDim S496x1 ![0] bcast_S496_S496x1_0 : (⟨S496, .i32⟩ : BufTy).Contents (Elt F) → (⟨S496x1, .i32⟩ : BufTy).Contents (Elt F)),
    binary main_arg0 main_v8 main_v9 ((fun x i => Host.gather gather_S16384x32x16_S496x1_S16384x496x16_02_1_n_n_1_1_16384116 x i) : (⟨S16384x32x16, .f32⟩ : BufTy).Contents (Elt F) → (⟨S496x1, .i32⟩ : BufTy).Contents (Elt F) → (⟨S16384x496x16, .f32⟩ : BufTy).Contents (Elt F)),
    binary main_v4 main_v9 main_v10 (mulf : (⟨S16384x496x16, .f32⟩ : BufTy).Contents (Elt F) → (⟨S16384x496x16, .f32⟩ : BufTy).Contents (Elt F) → (⟨S16384x496x16, .f32⟩ : BufTy).Contents (Elt F)),
    nullary main_cst (constant S_ .f32 0x00000000#32),
    binary main_v10 main_cst main_v11 ((fun x v => Host.reduceAdd x v reducesTo_S16384x496x16_S16384x496_d2 h_S_) : (⟨S16384x496x16, .f32⟩ : BufTy).Contents (Elt F) → (⟨S_, .f32⟩ : BufTy).Contents (Elt F) → (⟨S16384x496, .f32⟩ : BufTy).Contents (Elt F)) ]

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

end Cert.ReferenceIdeal.Hand

end
-- ==== Proof.RefRun.lean ====
/-
  The reference program run to its end: what the result buffer holds once its host operations have run in order.

  The program writes two tables of 496 row numbers (the first and the second member of every pair `i < j`), wraps
  each the way `x[:, idx, :]` does for negative indices (add 32 where the entry is negative: the masks are the
  constant `false`, so the tables pass through unchanged), gathers the rows they name along axis 1, multiplies the
  two gathered arrays and adds along the last axis from `0`.
-/
import proofs.«143081_j86517821214535_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main is its operations one after the other. -/
theorem main_eq (c : Dev nD) : main (F := F) c = seq ops := rfl
/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

/-- A table of row numbers as the start indices of a gather: wrapped where negative (nowhere: the mask is
    `false`), then given a trailing unit axis. -/
abbrev startIdx (lit : Fin 496 → BitVec 32) : (⟨S496x1, .i32⟩ : BufTy).Contents (Elt F) :=
  broadcastInDim S496x1 ![0] bcast_S496_S496x1_0
    (select (constantI S496 1 0#1)
      (addi (fun i => lit (S496.rowMajor i)) (broadcastInDim S496 ![] bcast_S_S496 (constantI S_ 32 32#32)))
      (fun i => lit (S496.rowMajor i)))

/-- What the result buffer holds after the run, as a term of the argument array. -/
abbrev result (x : (⟨S16384x32x16, .f32⟩ : BufTy).Contents (Elt F)) : (⟨S16384x496, .f32⟩ : BufTy).Contents (Elt F) :=
  Host.reduceAdd
    (mulf (Host.gather gather_S16384x32x16_S496x1_S16384x496x16_02_1_n_n_1_1_16384116 x (startIdx (F := F) lit0))
      (Host.gather gather_S16384x32x16_S496x1_S16384x496x16_02_1_n_n_1_1_16384116 x (startIdx (F := F) lit1)))
    (constant S_ .f32 0x00000000#32) reducesTo_S16384x496x16_S16384x496_d2 h_S_

/-- From any memory with zero counters every weakly fair execution of @main terminates, the result buffer at
    `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = result (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference's result, read index by index at the extended reals, is the pairwise inner products of the rows.

  A gather of rows along axis 1 reads, at `(b, p, d)`, the argument at `(b, r, d)` with `r` the `p`-th start index read
  signed and clamped into `0 … 31`.  The two tables of start indices hold the first and the second member of the
  `p`-th pair `i < j` in lexicographic order (checked entry by entry), the product is elementwise, and the host sum
  along the last axis from `0` is the sum over `d`.
-/
import proofs.«143081_j86517821214535_1_alg».proof.Proof.RefRun
import proofs.«143081_j86517821214535_1_alg».proof.Proof.PairSpec
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx
open Cert.PairSpec

/-- The gather of rows read at `(b, p, d)`: the argument at row `idx[p, 0]` (signed, clamped) of batch entry `b`. -/
theorem gather_rows_apply (x : S16384x32x16.Idx → EReal) (idx : IVec S496x1 32) (b : Fin 16384) (p : Fin 496) (d : Fin 16) :
    Host.gather gather_S16384x32x16_S496x1_S16384x496x16_02_1_n_n_1_1_16384116 x idx (ix3 b p d)
      = x (ix3 b ⟨min (idx (ix2 p (0 : Fin 1))).toInt.toNat 31, by omega⟩ d) := by
  unfold Host.gather
  congr 1
  funext a
  refine Fin.ext ?_
  match a with
  | ⟨0, h0⟩ =>
    show gather_S16384x32x16_S496x1_S16384x496x16_02_1_n_n_1_1_16384116.start (ix3 b p d) idx ⟨0, h0⟩ + gather_S16384x32x16_S496x1_S16384x496x16_02_1_n_n_1_1_16384116.batchCoord (ix3 b p d) ⟨0, h0⟩ + gather_S16384x32x16_S496x1_S16384x496x16_02_1_n_n_1_1_16384116.offCoord (ix3 b p d) ⟨0, h0⟩ = b.val
    have hs : gather_S16384x32x16_S496x1_S16384x496x16_02_1_n_n_1_1_16384116.start (ix3 b p d) idx ⟨0, h0⟩ = 0 := by
      unfold GatherDims.start; exact dif_neg (show (0 : Fin S16384x32x16.rank) ∉ gather_S16384x32x16_S496x1_S16384x496x16_02_1_n_n_1_1_16384116.startIndexMap by decide)
    have ho : gather_S16384x32x16_S496x1_S16384x496x16_02_1_n_n_1_1_16384116.offCoord (ix3 b p d) ⟨0, h0⟩ = b.val := by
      unfold GatherDims.offCoord
      exact (dif_pos (show (0 : Fin S16384x32x16.rank) ∈ gather_S16384x32x16_S496x1_S16384x496x16_02_1_n_n_1_1_16384116.sKept by decide)).trans rfl
    rw [GatherDims.batchCoord_eq_zero _ _ _ List.not_mem_nil, hs, ho]
    omega
  | ⟨1, h1⟩ =>
    show gather_S16384x32x16_S496x1_S16384x496x16_02_1_n_n_1_1_16384116.start (ix3 b p d) idx ⟨1, h1⟩ + gather_S16384x32x16_S496x1_S16384x496x16_02_1_n_n_1_1_16384116.batchCoord (ix3 b p d) ⟨1, h1⟩ + gather_S16384x32x16_S496x1_S16384x496x16_02_1_n_n_1_1_16384116.offCoord (ix3 b p d) ⟨1, h1⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin S16384x32x16.rank) ∈ gather_S16384x32x16_S496x1_S16384x496x16_02_1_n_n_1_1_16384116.startIndexMap from List.mem_singleton.mpr rfl)]
    have hsi : gather_S16384x32x16_S496x1_S16384x496x16_02_1_n_n_1_1_16384116.siIdx (ix3 b p d) ⟨List.idxOf (⟨1, h1⟩ : Fin S16384x32x16.rank) gather_S16384x32x16_S496x1_S16384x496x16_02_1_n_n_1_1_16384116.startIndexMap,
        List.idxOf_lt_length_iff.2 (List.mem_singleton.mpr rfl)⟩ = ix2 p (0 : Fin 1) := by
      funext b'; refine Fin.ext ?_
      match b' with
      | ⟨0, _⟩ => rfl
      | ⟨1, _⟩ => rfl
    rw [hsi]
    rfl
  | ⟨2, h2⟩ =>
    show gather_S16384x32x16_S496x1_S16384x496x16_02_1_n_n_1_1_16384116.start (ix3 b p d) idx ⟨2, h2⟩ + gather_S16384x32x16_S496x1_S16384x496x16_02_1_n_n_1_1_16384116.batchCoord (ix3 b p d) ⟨2, h2⟩ + gather_S16384x32x16_S496x1_S16384x496x16_02_1_n_n_1_1_16384116.offCoord (ix3 b p d) ⟨2, h2⟩ = d.val
    have hs : gather_S16384x32x16_S496x1_S16384x496x16_02_1_n_n_1_1_16384116.start (ix3 b p d) idx ⟨2, h2⟩ = 0 := by
      unfold GatherDims.start; exact dif_neg (show (2 : Fin S16384x32x16.rank) ∉ gather_S16384x32x16_S496x1_S16384x496x16_02_1_n_n_1_1_16384116.startIndexMap by decide)
    have ho : gather_S16384x32x16_S496x1_S16384x496x16_02_1_n_n_1_1_16384116.offCoord (ix3 b p d) ⟨2, h2⟩ = d.val := by
      unfold GatherDims.offCoord
      exact (dif_pos (show (2 : Fin S16384x32x16.rank) ∈ gather_S16384x32x16_S496x1_S16384x496x16_02_1_n_n_1_1_16384116.sKept by decide)).trans rfl
    rw [GatherDims.batchCoord_eq_zero _ _ _ List.not_mem_nil, hs, ho]
    omega

/-- The start indices built from a table, read at `(p, 0)`: the table's entry `p` (the wrap-around branch is never
    taken: its mask is `false` everywhere). -/
theorem startIdx_apply (lit : Fin 496 → BitVec 32) (p : Fin 496) :
    startIdx (F := Ideal) lit (ix2 p (0 : Fin 1)) = lit p := by
  refine (broadcastInDim_apply _ _ _ _ (ix1 p) ?_).trans ?_
  · intro a
    match a with
    | ⟨0, _⟩ => rfl
  · rw [select_apply]
    show Scalar.select 0#1 _ _ = _
    rw [select_zero]
    show lit (S496.rowMajor (ix1 p)) = lit p
    congr 1
    exact Fin.ext (Shape.rowMajor_val_one _)

/-- The two tables, entry by entry: read signed and clamped into `0 … 31`, entry `p` of the first is the first
    member of the `p`-th pair and entry `p` of the second its second member. -/
theorem tables_pair : ∀ p, p < 496 →
    min (lit0t p).toInt.toNat 31 = (pair p).1 ∧ min (lit1t p).toInt.toNat 31 = (pair p).2 := by decide +kernel

/-- The reference's result is the pairwise inner products of the argument's rows. -/
theorem result_eq (x : S16384x32x16.Idx → EReal) : result (F := Ideal) x = pairDots x := by
  funext y
  obtain ⟨b, p, rfl⟩ : ∃ (b : Fin 16384) (p : Fin 496), y = ix2 b p := ⟨y 0, y 1, eq_ix2 y⟩
  obtain ⟨pv, hp⟩ := p
  have hred : S16384x496x16.Reduces [2] S16384x496 := by decide
  show Ideal.hostReduceAdd _ _ _ (ix2 b ⟨pv, hp⟩) = _
  rw [Ideal.hostReduceAdd_single reducesTo_S16384x496x16_S16384x496_d2 hred,
    show (constant (F := Ideal) S_ .f32 0x00000000#32) (Shape.Idx.first h_S_) = 0 from Ideal.ofBits_zero_f32, zero_add,
    pairDots_at x _ b (pair pv).1 (pair pv).2 (pair_lt pv hp).1 (pair_lt pv hp).2 rfl rfl]
  refine Finset.sum_congr rfl fun (d : Fin 16) _ => ?_
  have hl : hred.lift (ix2 b ⟨pv, hp⟩) d = ix3 b (⟨pv, hp⟩ : Fin 496) d := by
    funext a
    refine Fin.ext ?_
    match a with
    | ⟨0, _⟩ => rfl
    | ⟨1, _⟩ => rfl
    | ⟨2, _⟩ => rfl
  rw [mulf_apply, hl, gather_rows_apply, gather_rows_apply]
  have e0 : (⟨min (startIdx (F := Ideal) lit0 (ix2 (⟨pv, hp⟩ : Fin 496) (0 : Fin 1))).toInt.toNat 31, by omega⟩ : Fin 32)
      = ⟨(pair pv).1, (pair_lt pv hp).1⟩ :=
    Fin.ext (by
      show min (startIdx (F := Ideal) lit0 (ix2 (⟨pv, hp⟩ : Fin 496) (0 : Fin 1))).toInt.toNat 31 = (pair pv).1
      rw [startIdx_apply]
      exact (tables_pair pv hp).1)
  have e1 : (⟨min (startIdx (F := Ideal) lit1 (ix2 (⟨pv, hp⟩ : Fin 496) (0 : Fin 1))).toInt.toNat 31, by omega⟩ : Fin 32)
      = ⟨(pair pv).2, (pair_lt pv hp).2⟩ :=
    Fin.ext (by
      show min (startIdx (F := Ideal) lit1 (ix2 (⟨pv, hp⟩ : Fin 496) (0 : Fin 1))).toInt.toNat 31 = (pair pv).2
      rw [startIdx_apply]
      exact (tables_pair pv hp).2)
  rw [e0, e1]

end Cert.ReferenceIdeal.Hand

end
-- ==== Proof.lean ====
/-
  The kernel computes, for every batch entry, the inner products of all 496 pairs `i < j` of its 32 rows of 16 numbers,
  and so does the reference; over the extended reals the two results are the same function of the argument.

  The kernel walks the batch in eight blocks of 2048 entries.  For each row `k` it multiplies row `k` against rows
  `k + 1 … 31`, adds along the last axis and stores the `31 - k` sums at columns `k (63 - k) / 2 …` of the block's
  output: exactly the columns the pairs `(k, k + 1), …, (k, 31)` have in the lexicographic order.  The reference
  gathers, for every column, the two rows of its pair from two tables of row numbers, multiplies them and adds
  along the last axis from zero; the tables list the pairs in the same order.  Both sides are
  `∑ d, x (b, i, d) * x (b, j, d)` with the same `(i, j)` at every column and the summands in the same order, so no
  law of the extended reals is needed and the precondition is not used.  The ideal pass rewrote nothing, so the
  kernel's idealization is its own text.
-/
import proofs.«143081_j86517821214535_1_alg».proof.Defs
import proofs.«143081_j86517821214535_1_alg».proof.Proof.Gen.Kernel
import proofs.«143081_j86517821214535_1_alg».proof.Proof.Gen.Kernel.Skeleton
import proofs.«143081_j86517821214535_1_alg».proof.Proof.Gen.Kernel.Launch
import proofs.«143081_j86517821214535_1_alg».proof.Proof.Gen.Kernel.Points
import proofs.«143081_j86517821214535_1_alg».proof.Proof.Gen.Kernel.Frame
import proofs.«143081_j86517821214535_1_alg».proof.Proof.Gen.KernelIdeal
import proofs.«143081_j86517821214535_1_alg».proof.Proof.Gen.KernelIdeal.Skeleton
import proofs.«143081_j86517821214535_1_alg».proof.Proof.Gen.KernelIdeal.Launch
import proofs.«143081_j86517821214535_1_alg».proof.Proof.Gen.KernelIdeal.Points
import proofs.«143081_j86517821214535_1_alg».proof.Proof.Gen.KernelIdeal.Frame
import proofs.«143081_j86517821214535_1_alg».proof.Proof.Gen.ReferenceIdeal
import proofs.«143081_j86517821214535_1_alg».proof.Proof.Gen.Pre_finite_inputs
import proofs.«143081_j86517821214535_1_alg».proof.Proof.KernelBlocks
import proofs.«143081_j86517821214535_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- From memories that agree on the argument both programs end with the pairwise inner products of its rows. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact Cert.ReferenceIdeal.Hand.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
